-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024x1024 .f32) (main_arg12 : FVec F S1024x1024 .f32) (main_arg13 : FVec F S1024x1024 .f32) (main_arg14 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 25
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S1024x4096, .bf16⟩
  | .hbm, ⟨20, _⟩ => ⟨S1024x4096, .f32⟩
  | .hbm, ⟨21, _⟩ => ⟨S1024x4096, .bf16⟩
  | .hbm, ⟨22, _⟩ => ⟨S1x4096, .f32⟩
  | .hbm, ⟨23, _⟩ => ⟨S16384x1024, .f32⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S16384x4096, .f32⟩
  | .hbm, ⟨20, _⟩ => ⟨S1024x4096, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.CellFrameBits.lean ====
/-
  The frame of the LSTM-cell program. @main first lays the parameters out — the four input-side gate matrices stacked
  into one [4096, 1024] array, the four hidden-side ones likewise, the four bias vectors into one [4096] vector; both
  stacks transposed to [1024, 4096] and narrowed to bf16; the bias reshaped to a [1, 4096] row — writing eight
  buffers of its own and none of the fifteen arguments. The one pallas_call then walks the 16384 rows in 64 tiles of
  256. At tile t the body is handed rows [256 t, 256 t + 256) of x, h_prev and c_prev and the three resident arrays
  whole (both transposed stacks and the bias row: their block index never moves, so they are fetched once and found
  again at every later tile), and it overwrites the WHOLE staging block of h_new and of c_new with one store each. So
  after the body each output buffer is one piece that covers it, a pure function of the six input blocks, and each
  input buffer is as it was found. With the arrays at region entry as the proof data's arrays, the pipeline's run
  ends with every argument array as launched: the three staged ones because an input window is never written back,
  the other twelve because no window stages them and no host operation wrote them.
-/
import proofs.«150049_j86792699117977_1_alg».proof.Proof.Gen.Kernel.Launch
import proofs.«150049_j86792699117977_1_alg».proof.Proof.Gen.Kernel.Skeleton
import proofs.«150049_j86792699117977_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight layout operations. -/
abbrev V (c : Dev nD) (b : Ref sig .tc) : Buf (Elt F) ((c : Thread nD τ).loc b) :=
  StableHlo.after (List.flatten [hostOps0]) (fun b => m (c, b)) b

/-- None of the layout operations allocates. -/
theorem hostOps0_fresh : (hostOps0 : List (HloOp τ sig (Elt F))).Forall fun op => op.fresh = ∅ := by
  simp only [List.Forall]; repeat' constructor

/-- @main is the layout operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (show List.Forall _ hostOps0 from hostOps0_sub)
    (show List.Forall _ hostOps0 from hostOps0_fresh) main_chain

/-- A buffer that is none of the eight the layout operations write (the two stacks, the stacked bias, the two
    transposes, their two bf16 copies, the bias row) is found by the region as launched. -/
theorem V_kept (c : Dev nD) (b : Ref sig .tc)
    (h0 : b ≠ main_v0) (h1 : b ≠ main_v1) (h2 : b ≠ main_v2) (h3 : b ≠ main_v3)
    (h4 : b ≠ main_v4) (h5 : b ≠ main_v5) (h6 : b ≠ main_v6) (h7 : b ≠ main_v7) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

/-- Each of the fifteen arguments is such a buffer. -/
theorem V_arg (c : Dev nD) (b : Ref sig .tc)
    (h0 : b ≠ main_v0 := by decide) (h1 : b ≠ main_v1 := by decide) (h2 : b ≠ main_v2 := by decide) (h3 : b ≠ main_v3 := by decide)
    (h4 : b ≠ main_v4 := by decide) (h5 : b ≠ main_v5 := by decide) (h6 : b ≠ main_v6 := by decide) (h7 : b ≠ main_v7 := by decide) :
    V m c b = m ((c : Thread nD τ).loc b) := V_kept m c b h0 h1 h2 h3 h4 h5 h6 h7

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every tile, fetched there or not: the body leaves
    the block in place, and where the pipeline does not fetch, the block index has not moved. One lemma per input
    window: the three row tiles (fetched at every tile) and the three resident arrays (fetched at the first). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- For any proof data whose arrays are the region-entry contents, a run that ends with every window's array at
    what the library computes and every unstaged buffer as the region found it leaves all fifteen arguments as
    launched: x, h_prev, c_prev are staged by input windows 0, 1, 2 (never written back); the twelve parameter
    arrays are staged by no window; and no layout operation wrote any of the fifteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_arg m c main_arg0))),
      ((h c).1 1).trans (((dats 0 c).arrAt_in 1 rfl _).trans ((hA c 1).trans (V_arg m c main_arg1))),
      ((h c).1 2).trans (((dats 0 c).arrAt_in 2 rfl _).trans ((hA c 2).trans (V_arg m c main_arg2))),
      ((h c).2 main_arg3 (Pipeline.mem_restRefs_of main_arg3 (by decide) (by decide))).trans (V_arg m c main_arg3),
      ((h c).2 main_arg4 (Pipeline.mem_restRefs_of main_arg4 (by decide) (by decide))).trans (V_arg m c main_arg4),
      ((h c).2 main_arg5 (Pipeline.mem_restRefs_of main_arg5 (by decide) (by decide))).trans (V_arg m c main_arg5),
      ((h c).2 main_arg6 (Pipeline.mem_restRefs_of main_arg6 (by decide) (by decide))).trans (V_arg m c main_arg6),
      ((h c).2 main_arg7 (Pipeline.mem_restRefs_of main_arg7 (by decide) (by decide))).trans (V_arg m c main_arg7),
      ((h c).2 main_arg8 (Pipeline.mem_restRefs_of main_arg8 (by decide) (by decide))).trans (V_arg m c main_arg8),
      ((h c).2 main_arg9 (Pipeline.mem_restRefs_of main_arg9 (by decide) (by decide))).trans (V_arg m c main_arg9),
      ((h c).2 main_arg10 (Pipeline.mem_restRefs_of main_arg10 (by decide) (by decide))).trans (V_arg m c main_arg10),
      ((h c).2 main_arg11 (Pipeline.mem_restRefs_of main_arg11 (by decide) (by decide))).trans (V_arg m c main_arg11),
      ((h c).2 main_arg12 (Pipeline.mem_restRefs_of main_arg12 (by decide) (by decide))).trans (V_arg m c main_arg12),
      ((h c).2 main_arg13 (Pipeline.mem_restRefs_of main_arg13 (by decide) (by decide))).trans (V_arg m c main_arg13),
      ((h c).2 main_arg14 (Pipeline.mem_restRefs_of main_arg14 (by decide) (by decide))).trans (V_arg m c main_arg14)⟩) h

/-! ## The body's accesses -/

/-- The whole of a [256, 1024] row tile, of a [1024, 4096] transposed stack, of the [1, 4096] bias row. -/
abbrev rTile : Rect S256x1024 := Rect.unit (s := S256x1024) ![0, 0] S256x1024.size inb_S256x1024_S256x1024_0_0
abbrev rStack : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output buffer -/

/-- The h_new buffer after the body, from the six input blocks (x, h_prev, c_prev tiles; the two transposed stacks; the
    bias row): its one store, of the output gate times tanh of the new cell state. -/
def outH (x0 x1 x2 : Vec F S256x1024 .f32) (x3 x4 : Vec F S1024x4096 .bf16) (x5 : Vec F S1x4096 .f32) : Vec F S256x1024 .f32 :=
  View.canon [⟨rTile, k0_pay3 (View.ld x0 rTile) (View.ld x1 rTile) (View.ld x3 rStack) (View.ld x4 rStack) (View.ld x5 rBias) (View.ld x2 rTile)⟩]

/-- The c_new buffer after the body: its one store, of forget gate times c_prev plus input gate times candidate. -/
def outC (x0 x1 x2 : Vec F S256x1024 .f32) (x3 x4 : Vec F S1024x4096 .bf16) (x5 : Vec F S1x4096 .f32) : Vec F S256x1024 .f32 :=
  View.canon [⟨rTile, k0_pay2 (View.ld x0 rTile) (View.ld x1 rTile) (View.ld x3 rStack) (View.ld x4 rStack) (View.ld x5 rBias) (View.ld x2 rTile)⟩]

/-- One store through the whole-tile rectangle covers the buffer. -/
theorem coverTile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole staging memrefs — the six inputs' at read contents `x0 … x5`, the two outputs' at anything — runs
    to a state holding the inputs' as they were and the outputs' at `outH`, `outC` of the inputs. (It also loads each
    output buffer before storing into it; the loaded value is used nowhere.) -/
theorem sound_kernel (c : Dev nD) (E : Set ℕ) (i : grid0.Coords)
    (a1 : Memref sig .tc .vmem S256x1024 .f32) (ha1 : a1.IsWhole) (a2 : Memref sig .tc .vmem S256x1024 .f32) (ha2 : a2.IsWhole)
    (a3 : Memref sig .tc .vmem S256x1024 .f32) (ha3 : a3.IsWhole) (a4 : Memref sig .tc .vmem S1024x4096 .bf16) (ha4 : a4.IsWhole)
    (a5 : Memref sig .tc .vmem S1024x4096 .bf16) (ha5 : a5.IsWhole) (a6 : Memref sig .tc .vmem S1x4096 .f32) (ha6 : a6.IsWhole)
    (a7 : Memref sig .tc .vmem S256x1024 .f32) (ha7 : a7.IsWhole) (a8 : Memref sig .tc .vmem S256x1024 .f32) (ha8 : a8.IsWhole)
    (x0 x1 x2 : Vec F S256x1024 .f32) (x3 x4 : Vec F S1024x4096 .bf16) (x5 : Vec F S1x4096 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (outH x0 x1 x2 x3 x4 x5) ∗ owns (c : Thread nD τ) a8 fullShare (outC x0 x1 x2 x3 x4 x5)) -∗ K ⟨⟩))
      ⊢ wp frame (wpE (defs₀ (F := F)) Variants.none c none) E (cc0__lstm_kernel i a1 ha1 a2 ha2 a3 ha3 a4 ha4 a5 ha5 a6 ha6 a7 ha7 a8 ha8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data on core `c`: the arrays as the region finds them; after the body at tile `t` each input's buffer at
    its block, the h_new and c_new buffers at `outH`, `outC` of the six input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_h (c : Dev nD) (t : Fin cfg0.N) : (dats m 0 c).after 6 t
    = outH (iblk m c 0 t) (iblk m c 1 t) (iblk m c 2 t) (iblk m c 3 t) (iblk m c 4 t) (iblk m c 5 t) := by dsimp only [dats]
theorem after_c (c : Dev nD) (t : Fin cfg0.N) : (dats m 0 c).after 7 t
    = outC (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  before_in0 m (dats m 0 c) (A_eq m c 0) (after_in0 m c) t d
theorem found1 (c : Dev nD) (t : Fin cfg0.N) (d) : (dats m 0 c).before 1 t d = iblk m c 1 t :=
  before_in1 m (dats m 0 c) (A_eq m c 1) (after_in1 m c) t d
theorem found2 (c : Dev nD) (t : Fin cfg0.N) (d) : (dats m 0 c).before 2 t d = iblk m c 2 t :=
  before_in2 m (dats m 0 c) (A_eq m c 2) (after_in2 m c) t d
theorem found3 (c : Dev nD) (t : Fin cfg0.N) (d) : (dats m 0 c).before 3 t d = iblk m c 3 t :=
  before_in3 m (dats m 0 c) (A_eq m c 3) (after_in3 m c) t d
theorem found4 (c : Dev nD) (t : Fin cfg0.N) (d) : (dats m 0 c).before 4 t d = iblk m c 4 t :=
  before_in4 m (dats m 0 c) (A_eq m c 4) (after_in4 m c) t d
theorem found5 (c : Dev nD) (t : Fin cfg0.N) (d) : (dats m 0 c).before 5 t d = iblk m c 5 t :=
  before_in5 m (dats m 0 c) (A_eq m c 5) (after_in5 m c) t d

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_h, after_c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.CellFrameIdeal.lean ====
/-
  The frame of the LSTM-cell program. @main first lays the parameters out — the four input-side gate matrices stacked
  into one [4096, 1024] array, the four hidden-side ones likewise, the four bias vectors into one [4096] vector; both
  stacks transposed to [1024, 4096] and narrowed to bf16; the bias reshaped to a [1, 4096] row — writing eight
  buffers of its own and none of the fifteen arguments. The one pallas_call then walks the 16384 rows in 64 tiles of
  256. At tile t the body is handed rows [256 t, 256 t + 256) of x, h_prev and c_prev and the three resident arrays
  whole (both transposed stacks and the bias row: their block index never moves, so they are fetched once and found
  again at every later tile), and it overwrites the WHOLE staging block of h_new and of c_new with one store each. So
  after the body each output buffer is one piece that covers it, a pure function of the six input blocks, and each
  input buffer is as it was found. With the arrays at region entry as the proof data's arrays, the pipeline's run
  ends with every argument array as launched: the three staged ones because an input window is never written back,
  the other twelve because no window stages them and no host operation wrote them.
-/
import proofs.«150049_j86792699117977_1_alg».proof.Proof.Gen.KernelIdeal.Launch
import proofs.«150049_j86792699117977_1_alg».proof.Proof.Gen.KernelIdeal.Skeleton
import proofs.«150049_j86792699117977_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight layout operations. -/
abbrev V (c : Dev nD) (b : Ref sig .tc) : Buf (Elt F) ((c : Thread nD τ).loc b) :=
  StableHlo.after (List.flatten [hostOps0]) (fun b => m (c, b)) b

/-- None of the layout operations allocates. -/
theorem hostOps0_fresh : (hostOps0 : List (HloOp τ sig (Elt F))).Forall fun op => op.fresh = ∅ := by
  simp only [List.Forall]; repeat' constructor

/-- @main is the layout operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (show List.Forall _ hostOps0 from hostOps0_sub)
    (show List.Forall _ hostOps0 from hostOps0_fresh) main_chain

/-- A buffer that is none of the eight the layout operations write (the two stacks, the stacked bias, the two
    transposes, their two bf16 copies, the bias row) is found by the region as launched. -/
theorem V_kept (c : Dev nD) (b : Ref sig .tc)
    (h0 : b ≠ main_v0) (h1 : b ≠ main_v1) (h2 : b ≠ main_v2) (h3 : b ≠ main_v3)
    (h4 : b ≠ main_v4) (h5 : b ≠ main_v5) (h6 : b ≠ main_v6) (h7 : b ≠ main_v7) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

/-- Each of the fifteen arguments is such a buffer. -/
theorem V_arg (c : Dev nD) (b : Ref sig .tc)
    (h0 : b ≠ main_v0 := by decide) (h1 : b ≠ main_v1 := by decide) (h2 : b ≠ main_v2 := by decide) (h3 : b ≠ main_v3 := by decide)
    (h4 : b ≠ main_v4 := by decide) (h5 : b ≠ main_v5 := by decide) (h6 : b ≠ main_v6 := by decide) (h7 : b ≠ main_v7 := by decide) :
    V m c b = m ((c : Thread nD τ).loc b) := V_kept m c b h0 h1 h2 h3 h4 h5 h6 h7

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every tile, fetched there or not: the body leaves
    the block in place, and where the pipeline does not fetch, the block index has not moved. One lemma per input
    window: the three row tiles (fetched at every tile) and the three resident arrays (fetched at the first). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- For any proof data whose arrays are the region-entry contents, a run that ends with every window's array at
    what the library computes and every unstaged buffer as the region found it leaves all fifteen arguments as
    launched: x, h_prev, c_prev are staged by input windows 0, 1, 2 (never written back); the twelve parameter
    arrays are staged by no window; and no layout operation wrote any of the fifteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_arg m c main_arg0))),
      ((h c).1 1).trans (((dats 0 c).arrAt_in 1 rfl _).trans ((hA c 1).trans (V_arg m c main_arg1))),
      ((h c).1 2).trans (((dats 0 c).arrAt_in 2 rfl _).trans ((hA c 2).trans (V_arg m c main_arg2))),
      ((h c).2 main_arg3 (Pipeline.mem_restRefs_of main_arg3 (by decide) (by decide))).trans (V_arg m c main_arg3),
      ((h c).2 main_arg4 (Pipeline.mem_restRefs_of main_arg4 (by decide) (by decide))).trans (V_arg m c main_arg4),
      ((h c).2 main_arg5 (Pipeline.mem_restRefs_of main_arg5 (by decide) (by decide))).trans (V_arg m c main_arg5),
      ((h c).2 main_arg6 (Pipeline.mem_restRefs_of main_arg6 (by decide) (by decide))).trans (V_arg m c main_arg6),
      ((h c).2 main_arg7 (Pipeline.mem_restRefs_of main_arg7 (by decide) (by decide))).trans (V_arg m c main_arg7),
      ((h c).2 main_arg8 (Pipeline.mem_restRefs_of main_arg8 (by decide) (by decide))).trans (V_arg m c main_arg8),
      ((h c).2 main_arg9 (Pipeline.mem_restRefs_of main_arg9 (by decide) (by decide))).trans (V_arg m c main_arg9),
      ((h c).2 main_arg10 (Pipeline.mem_restRefs_of main_arg10 (by decide) (by decide))).trans (V_arg m c main_arg10),
      ((h c).2 main_arg11 (Pipeline.mem_restRefs_of main_arg11 (by decide) (by decide))).trans (V_arg m c main_arg11),
      ((h c).2 main_arg12 (Pipeline.mem_restRefs_of main_arg12 (by decide) (by decide))).trans (V_arg m c main_arg12),
      ((h c).2 main_arg13 (Pipeline.mem_restRefs_of main_arg13 (by decide) (by decide))).trans (V_arg m c main_arg13),
      ((h c).2 main_arg14 (Pipeline.mem_restRefs_of main_arg14 (by decide) (by decide))).trans (V_arg m c main_arg14)⟩) h

/-! ## The body's accesses -/

/-- The whole of a [256, 1024] row tile, of a [1024, 4096] transposed stack, of the [1, 4096] bias row. -/
abbrev rTile : Rect S256x1024 := Rect.unit (s := S256x1024) ![0, 0] S256x1024.size inb_S256x1024_S256x1024_0_0
abbrev rStack : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output buffer -/

/-- The h_new buffer after the body, from the six input blocks (x, h_prev, c_prev tiles; the two transposed stacks; the
    bias row): its one store, of the output gate times tanh of the new cell state. -/
def outH (x0 x1 x2 : Vec F S256x1024 .f32) (x3 x4 : Vec F S1024x4096 .bf16) (x5 : Vec F S1x4096 .f32) : Vec F S256x1024 .f32 :=
  View.canon [⟨rTile, k0_pay3 (View.ld x0 rTile) (View.ld x1 rTile) (View.ld x3 rStack) (View.ld x4 rStack) (View.ld x5 rBias) (View.ld x2 rTile)⟩]

/-- The c_new buffer after the body: its one store, of forget gate times c_prev plus input gate times candidate. -/
def outC (x0 x1 x2 : Vec F S256x1024 .f32) (x3 x4 : Vec F S1024x4096 .bf16) (x5 : Vec F S1x4096 .f32) : Vec F S256x1024 .f32 :=
  View.canon [⟨rTile, k0_pay2 (View.ld x0 rTile) (View.ld x1 rTile) (View.ld x3 rStack) (View.ld x4 rStack) (View.ld x5 rBias) (View.ld x2 rTile)⟩]

/-- One store through the whole-tile rectangle covers the buffer. -/
theorem coverTile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole staging memrefs — the six inputs' at read contents `x0 … x5`, the two outputs' at anything — runs
    to a state holding the inputs' as they were and the outputs' at `outH`, `outC` of the inputs. (It also loads each
    output buffer before storing into it; the loaded value is used nowhere.) -/
theorem sound_kernel (c : Dev nD) (E : Set ℕ) (i : grid0.Coords)
    (a1 : Memref sig .tc .vmem S256x1024 .f32) (ha1 : a1.IsWhole) (a2 : Memref sig .tc .vmem S256x1024 .f32) (ha2 : a2.IsWhole)
    (a3 : Memref sig .tc .vmem S256x1024 .f32) (ha3 : a3.IsWhole) (a4 : Memref sig .tc .vmem S1024x4096 .bf16) (ha4 : a4.IsWhole)
    (a5 : Memref sig .tc .vmem S1024x4096 .bf16) (ha5 : a5.IsWhole) (a6 : Memref sig .tc .vmem S1x4096 .f32) (ha6 : a6.IsWhole)
    (a7 : Memref sig .tc .vmem S256x1024 .f32) (ha7 : a7.IsWhole) (a8 : Memref sig .tc .vmem S256x1024 .f32) (ha8 : a8.IsWhole)
    (x0 x1 x2 : Vec F S256x1024 .f32) (x3 x4 : Vec F S1024x4096 .bf16) (x5 : Vec F S1x4096 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (outH x0 x1 x2 x3 x4 x5) ∗ owns (c : Thread nD τ) a8 fullShare (outC x0 x1 x2 x3 x4 x5)) -∗ K ⟨⟩))
      ⊢ wp frame (wpE (defs₀ (F := F)) Variants.none c none) E (cc0__lstm_kernel i a1 ha1 a2 ha2 a3 ha3 a4 ha4 a5 ha5 a6 ha6 a7 ha7 a8 ha8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data on core `c`: the arrays as the region finds them; after the body at tile `t` each input's buffer at
    its block, the h_new and c_new buffers at `outH`, `outC` of the six input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_h (c : Dev nD) (t : Fin cfg0.N) : (dats m 0 c).after 6 t
    = outH (iblk m c 0 t) (iblk m c 1 t) (iblk m c 2 t) (iblk m c 3 t) (iblk m c 4 t) (iblk m c 5 t) := by dsimp only [dats]
theorem after_c (c : Dev nD) (t : Fin cfg0.N) : (dats m 0 c).after 7 t
    = outC (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  before_in0 m (dats m 0 c) (A_eq m c 0) (after_in0 m c) t d
theorem found1 (c : Dev nD) (t : Fin cfg0.N) (d) : (dats m 0 c).before 1 t d = iblk m c 1 t :=
  before_in1 m (dats m 0 c) (A_eq m c 1) (after_in1 m c) t d
theorem found2 (c : Dev nD) (t : Fin cfg0.N) (d) : (dats m 0 c).before 2 t d = iblk m c 2 t :=
  before_in2 m (dats m 0 c) (A_eq m c 2) (after_in2 m c) t d
theorem found3 (c : Dev nD) (t : Fin cfg0.N) (d) : (dats m 0 c).before 3 t d = iblk m c 3 t :=
  before_in3 m (dats m 0 c) (A_eq m c 3) (after_in3 m c) t d
theorem found4 (c : Dev nD) (t : Fin cfg0.N) (d) : (dats m 0 c).before 4 t d = iblk m c 4 t :=
  before_in4 m (dats m 0 c) (A_eq m c 4) (after_in4 m c) t d
theorem found5 (c : Dev nD) (t : Fin cfg0.N) (d) : (dats m 0 c).before 5 t d = iblk m c 5 t :=
  before_in5 m (dats m 0 c) (A_eq m c 5) (after_in5 m c) t d

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_h, after_c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.Spec.lean ====
/-
  The LSTM cell as ONE function of its arrays, on the extended reals.

  Rows are batch rows (16384 of them in the arrays, 256 in a tile: the definitions are stated for any number `R`),
  columns the 1024 hidden units. The parameters enter only through three arrays that both programs build in the same way
  before anything else: `wi`, `wh : [1024, 4096]` — the four input-side (hidden-side) gate matrices stacked along the
  output axis and transposed, so that column `j` of `wi` is row `j` of the stack — and `b : [4096]`, the four bias
  vectors joined. For a row `r` and a stacked column `j` the pre-activation is

      pre r j = (∑ k, x r k · wi k j) + (∑ k, h r k · wh k j) + b j ,

  added in this association on both sides. The four gates of hidden unit `q` read columns `q`, `1024 + q`, `2048 + q`,
  `3072 + q` (input, forget, candidate, output), and

      c' r q = σ (pre r (1024 + q)) · c r q + σ (pre r q) · tanh (pre r (2048 + q)) ,
      h' r q = σ (pre r (3072 + q)) · tanh (c' r q) ,

  with σ the logistic function `1 / (1 + e⁻ˣ)` of the extended reals (`0` at `⊥`, `1` at `⊤`). No distributive law is
  used anywhere, so nothing here asks the inputs to be finite. A row's results depend on that row of x, h, c alone
  (`cellNew_row`, `hidNew_row`): this is what lets a tile of rows be computed by itself.
-/
import Idealize.ShloMosaic.PureOps.Ideal
import Idealize.ShloMosaic.Lib.ValueIdx
import Idealize.ShloMosaic.Lib.IdealHost

noncomputable section

open scoped BigOperators

namespace Cert.LstmCell

open Idealize.ShloMosaic Idealize.ShloMosaic.ValueIdx

/-- The shape of x, h_prev, c_prev, h_new, c_new; of a transposed stack of four gate matrices; of the joined bias. -/
abbrev Rows : Shape := ⟨2, ![16384, 1024]⟩
abbrev Stack : Shape := ⟨2, ![1024, 4096]⟩
abbrev Bias : Shape := ⟨1, ![4096]⟩

section Defs

variable {R : ℕ} (x h cp : (⟨2, ![R, 1024]⟩ : Shape).Idx → EReal) (wi wh : Stack.Idx → EReal) (b : Bias.Idx → EReal)

/-- The pre-activation of stacked column `j` at row `r`. -/
def pre (r : Fin R) (j : Fin 4096) : EReal :=
  (∑ k : Fin 1024, x (ix2 r k) * wi (ix2 k j)) + (∑ k : Fin 1024, h (ix2 r k) * wh (ix2 k j)) + b (ix1 j)

/-- The new cell state of hidden unit `q` at row `r`. -/
def cellNew (r : Fin R) (q : Fin 1024) : EReal :=
  Ideal.logistic (pre x h wi wh b r ⟨1024 + q.val, by omega⟩) * cp (ix2 r q)
    + Ideal.logistic (pre x h wi wh b r ⟨q.val, by omega⟩) * Ideal.tanh (pre x h wi wh b r ⟨2048 + q.val, by omega⟩)

/-- The new hidden state of hidden unit `q` at row `r`. -/
def hidNew (r : Fin R) (q : Fin 1024) : EReal :=
  Ideal.logistic (pre x h wi wh b r ⟨3072 + q.val, by omega⟩) * Ideal.tanh (cellNew x h cp wi wh b r q)

end Defs

section Rowwise

variable {R R' : ℕ} (x h cp : (⟨2, ![R, 1024]⟩ : Shape).Idx → EReal) (x' h' cp' : (⟨2, ![R', 1024]⟩ : Shape).Idx → EReal)
  (wi wh : Stack.Idx → EReal) (b : Bias.Idx → EReal) (r : Fin R) (r' : Fin R')

/-- Two rows with the same x and h have the same pre-activations. -/
theorem pre_row (hx : ∀ k : Fin 1024, x (ix2 r k) = x' (ix2 r' k)) (hh : ∀ k : Fin 1024, h (ix2 r k) = h' (ix2 r' k))
    (j : Fin 4096) : pre x h wi wh b r j = pre x' h' wi wh b r' j := by
  unfold pre
  simp only [hx, hh]

/-- Two rows with the same x, h and c have the same new cell state, -/
theorem cellNew_row (hx : ∀ k : Fin 1024, x (ix2 r k) = x' (ix2 r' k)) (hh : ∀ k : Fin 1024, h (ix2 r k) = h' (ix2 r' k))
    (hc : ∀ q : Fin 1024, cp (ix2 r q) = cp' (ix2 r' q)) (q : Fin 1024) :
    cellNew x h cp wi wh b r q = cellNew x' h' cp' wi wh b r' q := by
  unfold cellNew
  rw [pre_row x h x' h' wi wh b r r' hx hh ⟨1024 + q.val, by omega⟩, pre_row x h x' h' wi wh b r r' hx hh ⟨q.val, by omega⟩,
    pre_row x h x' h' wi wh b r r' hx hh ⟨2048 + q.val, by omega⟩, hc q]

/-- and the same new hidden state. -/
theorem hidNew_row (hx : ∀ k : Fin 1024, x (ix2 r k) = x' (ix2 r' k)) (hh : ∀ k : Fin 1024, h (ix2 r k) = h' (ix2 r' k))
    (hc : ∀ q : Fin 1024, cp (ix2 r q) = cp' (ix2 r' q)) (q : Fin 1024) :
    hidNew x h cp wi wh b r q = hidNew x' h' cp' wi wh b r' q := by
  unfold hidNew
  rw [pre_row x h x' h' wi wh b r r' hx hh ⟨3072 + q.val, by omega⟩, cellNew_row x h cp x' h' cp' wi wh b r r' hx hh hc q]

end Rowwise

/-- The two results as arrays. -/
def cellArr (x h cp : Rows.Idx → EReal) (wi wh : Stack.Idx → EReal) (b : Bias.Idx → EReal) : Rows.Idx → EReal :=
  fun i => cellNew x h cp wi wh b ⟨(i 0).val, (i 0).isLt⟩ ⟨(i 1).val, (i 1).isLt⟩
def hidArr (x h cp : Rows.Idx → EReal) (wi wh : Stack.Idx → EReal) (b : Bias.Idx → EReal) : Rows.Idx → EReal :=
  fun i => hidNew x h cp wi wh b ⟨(i 0).val, (i 0).isLt⟩ ⟨(i 1).val, (i 1).isLt⟩

/-- The reference spells the logistic function out, `1 / (1 + e⁻ᵍ)` with both ones the f32 word of 1.0: that is
    the logistic function's own definition on the extended reals. -/
theorem spelt_logistic (g : EReal) :
    Ideal.div (Ideal.ofBits .f32 0x3F800000#32) (Ideal.ofBits .f32 0x3F800000#32 + Ideal.exp (-g)) = Ideal.logistic g := by
  rw [Ideal.ofBits_one_f32]; rfl

end Cert.LstmCell

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.TileValue.lean ====
/-
  What the body computes on one tile, read at an entry. With the tile's 256 rows of x, h_prev, c_prev, the two transposed
  stacks and the bias row as loaded, the body's pre-activation array at (p, j) is the specification's `pre` — each matrix
  unit product into zeros is the sum over the 1024 features (narrowing to bf16 and a cast to the same shape are the
  identity on the extended reals), the bias row stretched over the rows reads its entry j —, the lane slices at
  offsets 0, 1024, 2048, 3072 pick the four gates, and the two stored values are the specification's new cell state and
  new hidden state of row p of the tile.
-/
import proofs.«150049_j86792699117977_1_alg».proof.Proof.Gen.KernelIdeal.Skeleton
import proofs.«150049_j86792699117977_1_alg».proof.Proof.Spec
import proofs.«150049_j86792699117977_1_alg».proof.Proof.LibDense
import Idealize.ShloMosaic.Lib.Pipeline.Value
import Idealize.ShloMosaic.Lib.ValueIdx

noncomputable section

open scoped BigOperators

namespace Cert.KernelIdeal.Tile

open Cert.KernelIdeal Cert.KernelIdeal.Gen Cert.LstmCell
open Idealize.ShloMosaic Idealize.ShloMosaic.TcCoe Idealize.ShloMosaic.ValueIdx

variable (v0 v2 v23 : Vec Ideal S256x1024 .f32) (v4 v7 : Vec Ideal S1024x4096 .bf16) (v11 : Vec Ideal S1x4096 .f32)

/-- The [1, 4096] bias row as a [4096] vector. -/
def rowVec (v : Vec Ideal S1x4096 .f32) : Bias.Idx → EReal := fun i => v (ix2 (0 : Fin 1) ⟨(i 0).val, (i 0).isLt⟩)

/-- The lane operations at an entry. -/
theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- A slice of 1024 lanes at lane offset `off` of a [256, 4096] array, at (p, q): the array at (p, off + q). -/
theorem slice_at (off : ℕ) (hoff : off + 1024 ≤ 4096) (y : FVec Ideal S256x4096 .f32) (h : S256x4096.Slices ![0, off] S256x1024)
    (p : Fin 256) (q : Fin 1024) :
    extractStridedSlice S256x1024 ![0, off] y h (ix2 p q) = y (ix2 p ⟨off + q.val, by omega⟩) :=
  extractStridedSlice_apply ![0, off] y h (ix2 p q) (ix2 p ⟨off + q.val, by omega⟩) (fun a => match a with
    | ⟨0, _⟩ => by show p.val = 0 + p.val; omega
    | ⟨1, _⟩ => rfl)

/-- The pre-activation payload, as the operations the body applies. -/
theorem pay1_eq : k0_pay1 v0 v2 v4 v7 v11
    = addf (addf
        (matmul (φ₂ := .bf16) dot_S256x1024_S1024x4096_S256x4096_1_0_0_1_n_n none (truncf .bf16 v0 bitsLt_bf16_f32)
          (shapeCast S1024x4096 v4 shapeCasts_S1024x4096_S1024x4096) (constant S256x4096 .f32 0x00000000#32))
        (matmul (φ₂ := .bf16) dot_S256x1024_S1024x4096_S256x4096_1_0_0_1_n_n none (truncf .bf16 v2 bitsLt_bf16_f32)
          (shapeCast S1024x4096 v7 shapeCasts_S1024x4096_S1024x4096) (constant S256x4096 .f32 0x00000000#32)))
      (broadcastTo S256x4096 (shapeCast S1x4096 v11 shapeCasts_S1x4096_S1x4096) broadcasts_S1x4096_S256x4096) := rfl

/-- The pre-activation payload at (p, j). -/
theorem pay_pre (p : Fin 256) (j : Fin 4096) :
    k0_pay1 v0 v2 v4 v7 v11 (ix2 p j) = pre (R := 256) v0 v2 v4 v7 (rowVec v11) p j := by
  rw [pay1_eq, addf_apply, addf_apply,
    Cert.Dense.matmul_zero_plain_apply dot_S256x1024_S1024x4096_S256x4096_1_0_0_1_n_n rfl rfl rfl rfl rfl rfl,
    Cert.Dense.matmul_zero_plain_apply dot_S256x1024_S1024x4096_S256x4096_1_0_0_1_n_n rfl rfl rfl rfl rfl rfl,
    shapeCast_self, shapeCast_self, shapeCast_self,
    broadcastTo_apply v11 broadcasts_S1x4096_S256x4096 (ix2 p j) (ix2 (0 : Fin 1) j) (fun a => by
      match a with
      | ⟨0, _⟩ => exact (if_pos rfl).symm
      | ⟨1, _⟩ => show j.val = if (4096 : ℕ) = 1 then 0 else j.val; rw [if_neg (by decide)])]
  rfl

/-- The cell-state payload, as the operations the body applies. -/
theorem pay2_eq : k0_pay2 v0 v2 v4 v7 v11 v23
    = addf (mulf (logistic (extractStridedSlice S256x1024 ![0, 1024] (k0_pay1 v0 v2 v4 v7 v11) slices_S256x4096_o0_1024_S256x1024)) v23)
        (mulf (logistic (extractStridedSlice S256x1024 ![0, 0] (k0_pay1 v0 v2 v4 v7 v11) slices_S256x4096_o0_0_S256x1024))
          (tanh (extractStridedSlice S256x1024 ![0, 2048] (k0_pay1 v0 v2 v4 v7 v11) slices_S256x4096_o0_2048_S256x1024))) := rfl

/-- The cell-state payload at (p, q): the specification's new cell state of row p of the tile. -/
theorem pay_cell (p : Fin 256) (q : Fin 1024) :
    k0_pay2 v0 v2 v4 v7 v11 v23 (ix2 p q) = cellNew (R := 256) v0 v2 v23 v4 v7 (rowVec v11) p q := by
  rw [pay2_eq, addf_apply, mulf_apply, mulf_apply, logistic_at, logistic_at, tanh_at,
    slice_at 1024 (by omega), slice_at 0 (by omega), slice_at 2048 (by omega), pay_pre, pay_pre, pay_pre]
  unfold cellNew
  have e0 : (⟨0 + q.val, by omega⟩ : Fin 4096) = ⟨q.val, by omega⟩ := Fin.ext (Nat.zero_add _)
  rw [e0]

/-- The hidden-state payload, as the operations the body applies. -/
theorem pay3_eq : k0_pay3 v0 v2 v4 v7 v11 v23
    = mulf (logistic (extractStridedSlice S256x1024 ![0, 3072] (k0_pay1 v0 v2 v4 v7 v11) slices_S256x4096_o0_3072_S256x1024))
        (tanh (k0_pay2 v0 v2 v4 v7 v11 v23)) := rfl

/-- The hidden-state payload at (p, q): the specification's new hidden state of row p of the tile. -/
theorem pay_hid (p : Fin 256) (q : Fin 1024) :
    k0_pay3 v0 v2 v4 v7 v11 v23 (ix2 p q) = hidNew (R := 256) v0 v2 v23 v4 v7 (rowVec v11) p q := by
  rw [pay3_eq, mulf_apply, logistic_at, tanh_at, slice_at 3072 (by omega), pay_pre, pay_cell]
  rfl

end Cert.KernelIdeal.Tile

end
-- ==== Proof.KernelValue.lean ====
/-
  From tiles to arrays. The region finds x, h_prev, c_prev as launched, and the three parameter arrays as @main's
  layout operations left them: the transposed stack of the four input-side matrices, of the four hidden-side ones
  (their narrowing to bf16 is the identity on the extended reals), and the joined bias viewed as a [1, 4096] row.
  Tile t's blocks of x, h_prev, c_prev are rows 256 t … 256 t + 255 of the arrays; the resident windows' one block is
  the whole array. So what tile t writes back to c_new (h_new) is, entry by entry, the specification's new cell state
  (hidden state) at row 256 t + p — a row's results depend on that row alone —, that is, block t of ONE array,
  `cellK` (`hidK`). The 64 tiles cover all 16384 rows, so after the run the two result arrays are those arrays.
-/
import proofs.«150049_j86792699117977_1_alg».proof.Proof.CellFrameIdeal
import proofs.«150049_j86792699117977_1_alg».proof.Proof.TileValue
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.CellValue

open Cert.KernelIdeal Cert.KernelIdeal.Gen Cert.KernelIdeal.Cell Cert.KernelIdeal.Tile Cert.LstmCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The parameter arrays as the region finds them -/

/-- The four input-side gate matrices stacked and transposed; the four hidden-side ones; the four biases joined. -/
def wiK (c : Dev nD) : Stack.Idx → EReal :=
  transpose S1024x4096 [1, 0] (concatenate S4096x1024 0 [⟨S1024x1024, m ((c : Thread nD τ).loc main_arg3)⟩,
    ⟨S1024x1024, m ((c : Thread nD τ).loc main_arg4)⟩, ⟨S1024x1024, m ((c : Thread nD τ).loc main_arg5)⟩,
    ⟨S1024x1024, m ((c : Thread nD τ).loc main_arg6)⟩] concatenates_S1024x1024_S1024x1024_S1024x1024_S1024x1024_S4096x1024_d0)
    transposes_S4096x1024_S1024x4096_1_0
def whK (c : Dev nD) : Stack.Idx → EReal :=
  transpose S1024x4096 [1, 0] (concatenate S4096x1024 0 [⟨S1024x1024, m ((c : Thread nD τ).loc main_arg11)⟩,
    ⟨S1024x1024, m ((c : Thread nD τ).loc main_arg12)⟩, ⟨S1024x1024, m ((c : Thread nD τ).loc main_arg13)⟩,
    ⟨S1024x1024, m ((c : Thread nD τ).loc main_arg14)⟩] concatenates_S1024x1024_S1024x1024_S1024x1024_S1024x1024_S4096x1024_d0)
    transposes_S4096x1024_S1024x4096_1_0
def bK (c : Dev nD) : Bias.Idx → EReal :=
  concatenate S4096 0 [⟨S1024, m ((c : Thread nD τ).loc main_arg7)⟩, ⟨S1024, m ((c : Thread nD τ).loc main_arg8)⟩,
    ⟨S1024, m ((c : Thread nD τ).loc main_arg9)⟩, ⟨S1024, m ((c : Thread nD τ).loc main_arg10)⟩]
    concatenates_S1024_S1024_S1024_S1024_S4096_d0

/-- The bf16 copy of the transposed input-side stack, at region entry. -/
theorem entry_wi (c : Dev nD) : (V m c main_v4 : S1024x4096.Idx → EReal) = wiK m c := by
  dsimp only [V]
  simp only [hostOps0, List.flatten_cons, List.flatten_nil, List.append_nil, List.cons_append, List.nil_append]
  after_results
  rfl

/-- The bf16 copy of the transposed hidden-side stack, at region entry. -/
theorem entry_wh (c : Dev nD) : (V m c main_v6 : S1024x4096.Idx → EReal) = whK m c := by
  dsimp only [V]
  simp only [hostOps0, List.flatten_cons, List.flatten_nil, List.append_nil, List.cons_append, List.nil_append]
  after_results
  rfl

/-- The bias row, at region entry: the joined bias viewed as [1, 4096]. -/
theorem entry_b (c : Dev nD) : (V m c main_v7 : S1x4096.Idx → EReal) = shapeCast S1x4096 (bK m c) shapeCasts_S4096_S1x4096 := by
  dsimp only [V]
  simp only [hostOps0, List.flatten_cons, List.flatten_nil, List.append_nil, List.cons_append, List.nil_append]
  after_results
  rfl

/-- A [4096] vector viewed as a [1, 4096] row and read back as a vector is the vector. -/
theorem rowVec_view (y : Bias.Idx → EReal) (h : S4096.ShapeCasts S1x4096) : rowVec (shapeCast S1x4096 y h) = y := by
  funext i
  obtain ⟨j, rfl⟩ : ∃ j : Fin 4096, i = ix1 j := ⟨i 0, eq_ix1 i⟩
  exact (shapeCast_addUnit_apply ![4096] y h (ix2 (0 : Fin 1) j)).trans
    (congrArg y (funext fun a => match a with | ⟨0, _⟩ => rfl))

/-! ## The windows' index maps and blocks -/

theorem lt64 (t : Fin cfg0.N) : t.val < 64 := lt_of_lt_of_eq t.isLt N_0

/-- The printed index maps, decided over the grid: the five row-tiled windows are at block (t, 0), the three
    resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The blocks at tile `t`, each at its literal type. -/
abbrev xT (c : Dev nD) (t : Fin cfg0.N) : Vec Ideal S256x1024 .f32 := iblk m c 0 t
abbrev hT (c : Dev nD) (t : Fin cfg0.N) : Vec Ideal S256x1024 .f32 := iblk m c 1 t
abbrev cT (c : Dev nD) (t : Fin cfg0.N) : Vec Ideal S256x1024 .f32 := iblk m c 2 t
abbrev wiT (c : Dev nD) (t : Fin cfg0.N) : Vec Ideal S1024x4096 .bf16 := iblk m c 3 t
abbrev whT (c : Dev nD) (t : Fin cfg0.N) : Vec Ideal S1024x4096 .bf16 := iblk m c 4 t
abbrev bT (c : Dev nD) (t : Fin cfg0.N) : Vec Ideal S1x4096 .f32 := iblk m c 5 t

/-- Row p of tile t of x is row 256 t + p of x as launched; the same for h_prev and c_prev. -/
theorem xT_at (c : Dev nD) (t : Fin cfg0.N) (p : Fin 256) (k : Fin 1024) :
    xT m c t (ix2 p k) = m ((c : Thread nD τ).loc main_arg0) (ix2 ⟨t.val * 256 + p.val, by have := lt64 t; omega⟩ k) := by
  show V m c main_arg0 (((cfg0.win 0).blk t).view.emb (ix2 p k)) = _
  rw [V_arg m c main_arg0]
  obtain ⟨e00, e01, -⟩ := idx_facts t
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega
theorem hT_at (c : Dev nD) (t : Fin cfg0.N) (p : Fin 256) (k : Fin 1024) :
    hT m c t (ix2 p k) = m ((c : Thread nD τ).loc main_arg1) (ix2 ⟨t.val * 256 + p.val, by have := lt64 t; omega⟩ k) := by
  show V m c main_arg1 (((cfg0.win 1).blk t).view.emb (ix2 p k)) = _
  rw [V_arg m c main_arg1]
  obtain ⟨-, -, e10, e11, -⟩ := idx_facts t
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega
theorem cT_at (c : Dev nD) (t : Fin cfg0.N) (p : Fin 256) (k : Fin 1024) :
    cT m c t (ix2 p k) = m ((c : Thread nD τ).loc main_arg2) (ix2 ⟨t.val * 256 + p.val, by have := lt64 t; omega⟩ k) := by
  show V m c main_arg2 (((cfg0.win 2).blk t).view.emb (ix2 p k)) = _
  rw [V_arg m c main_arg2]
  obtain ⟨-, -, -, -, e20, e21, -⟩ := idx_facts t
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- A resident window's one block is its whole array. -/
theorem wiT_eq (c : Dev nD) (t : Fin cfg0.N) : (wiT m c t : Stack.Idx → EReal) = wiK m c := by
  funext y
  show V m c main_v4 (((cfg0.win 3).blk t).view.emb y) = _
  rw [entry_wi]
  obtain ⟨-, -, -, -, -, -, e30, e31, -⟩ := idx_facts t
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega
theorem whT_eq (c : Dev nD) (t : Fin cfg0.N) : (whT m c t : Stack.Idx → EReal) = whK m c := by
  funext y
  show V m c main_v6 (((cfg0.win 4).blk t).view.emb y) = _
  rw [entry_wh]
  obtain ⟨-, -, -, -, -, -, -, -, e40, e41, -⟩ := idx_facts t
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega
theorem bT_eq (c : Dev nD) (t : Fin cfg0.N) : rowVec (bT m c t) = bK m c := by
  have e : (bT m c t : S1x4096.Idx → EReal) = shapeCast S1x4096 (bK m c) shapeCasts_S4096_S1x4096 := by
    funext y
    show V m c main_v7 (((cfg0.win 5).blk t).view.emb y) = _
    rw [entry_b]
    obtain ⟨-, -, -, -, -, -, -, -, -, -, e50, e51, -⟩ := idx_facts t
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 4096 + 1 * (y 1).val = (y 1).val; omega
  rw [e, rowVec_view]

/-! ## The two result arrays -/

/-- The new cell state and the new hidden state of the launched arrays. -/
def cellK (c : Dev nD) : Rows.Idx → EReal :=
  cellArr (m ((c : Thread nD τ).loc main_arg0)) (m ((c : Thread nD τ).loc main_arg1)) (m ((c : Thread nD τ).loc main_arg2))
    (wiK m c) (whK m c) (bK m c)
def hidK (c : Dev nD) : Rows.Idx → EReal :=
  hidArr (m ((c : Thread nD τ).loc main_arg0)) (m ((c : Thread nD τ).loc main_arg1)) (m ((c : Thread nD τ).loc main_arg2))
    (wiK m c) (whK m c) (bK m c)

theorem hz : (![0, 0] : Fin 2 → Nat) = fun _ => 0 := funext fun a => by fin_cases a <;> rfl

/-- What tile t computes for c_new at (p, q) is the new cell state at row 256 t + p. -/
theorem tile_cell (c : Dev nD) (t : Fin cfg0.N) (p : Fin 256) (q : Fin 1024) :
    k0_pay2 (xT m c t) (hT m c t) (wiT m c t) (whT m c t) (bT m c t) (cT m c t) (ix2 p q)
      = cellK m c (ix2 ⟨t.val * 256 + p.val, by have := lt64 t; omega⟩ q) := by
  rw [pay_cell, wiT_eq, whT_eq, bT_eq]
  exact cellNew_row _ _ _ _ _ _ _ _ _ p ⟨t.val * 256 + p.val, by have := lt64 t; omega⟩
    (xT_at m c t p) (hT_at m c t p) (cT_at m c t p) q

/-- What tile t computes for h_new at (p, q) is the new hidden state at row 256 t + p. -/
theorem tile_hid (c : Dev nD) (t : Fin cfg0.N) (p : Fin 256) (q : Fin 1024) :
    k0_pay3 (xT m c t) (hT m c t) (wiT m c t) (whT m c t) (bT m c t) (cT m c t) (ix2 p q)
      = hidK m c (ix2 ⟨t.val * 256 + p.val, by have := lt64 t; omega⟩ q) := by
  rw [pay_hid, wiT_eq, whT_eq, bT_eq]
  exact hidNew_row _ _ _ _ _ _ _ _ _ p ⟨t.val * 256 + p.val, by have := lt64 t; omega⟩
    (xT_at m c t p) (hT_at m c t p) (cT_at m c t p) q

/-- WHAT TILE t WRITES BACK to c_new is block t of `cellK`. -/
theorem flushed_c (c : Dev nD) (t : Fin cfg0.N) :
    (dats m 0 c).flushed 7 t = ((cfg0.win 7).blk t).view.read (Elt Ideal) (cellK m c) := by
  show (cfg0.win 7).cut (grid0.coords t) ((dats m 0 c).after 7 t) = _
  rw [after_c]
  unfold outC
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (tile_cell m c t p q).trans ?_
  show cellK m c _ = cellK m c (((cfg0.win 7).blk t).view.emb (ix2 p q))
  obtain ⟨-, -, -, -, -, -, -, -, -, -, -, -, -, -, e70, e71⟩ := idx_facts t
  refine congrArg _ (funext fun a => Fin.ext ?_)
  match a with
  | ⟨0, _⟩ => show t.val * 256 + p.val = win0_7.index t (0 : Fin 2) * 256 + 1 * p.val; omega
  | ⟨1, _⟩ => show q.val = win0_7.index t (1 : Fin 2) * 1024 + 1 * q.val; omega

/-- WHAT TILE t WRITES BACK to h_new is block t of `hidK`. -/
theorem flushed_h (c : Dev nD) (t : Fin cfg0.N) :
    (dats m 0 c).flushed 6 t = ((cfg0.win 6).blk t).view.read (Elt Ideal) (hidK m c) := by
  show (cfg0.win 6).cut (grid0.coords t) ((dats m 0 c).after 6 t) = _
  rw [after_h]
  unfold outH
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (tile_hid m c t p q).trans ?_
  show hidK m c _ = hidK m c (((cfg0.win 6).blk t).view.emb (ix2 p q))
  obtain ⟨-, -, -, -, -, -, -, -, -, -, -, -, e60, e61, -⟩ := idx_facts t
  refine congrArg _ (funext fun a => Fin.ext ?_)
  match a with
  | ⟨0, _⟩ => show t.val * 256 + p.val = win0_6.index t (0 : Fin 2) * 256 + 1 * p.val; omega
  | ⟨1, _⟩ => show q.val = win0_6.index t (1 : Fin 2) * 1024 + 1 * q.val; omega

/-- An index of a result array is in tile t's block iff each coordinate is in the block's range on its axis. -/
theorem mem_blk_c (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_1).slice (win0_7.rect t)).set ↔ _
  rw [View.set_slice_whole, Rect.mem_set_unit]
  exact Iff.rfl
theorem mem_blk_h (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v8_0).slice (win0_6.rect t)).set ↔ _
  rw [View.set_slice_whole, Rect.mem_set_unit]
  exact Iff.rfl

/-- Row r lies in tile r / 256: the 64 tiles cover the array. -/
theorem cover_c (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨-, -, -, -, -, -, -, -, -, -, -, -, -, -, e70, e71⟩ := idx_facts t
  have ht : t.val = (i 0).val / 256 := rfl
  refine ⟨t, flush0_7 t, ?_⟩
  rw [mem_blk_c]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega
theorem cover_h (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨-, -, -, -, -, -, -, -, -, -, -, -, e60, e61, -⟩ := idx_facts t
  have ht : t.val = (i 0).val / 256 := rfl
  refine ⟨t, flush0_6 t, ?_⟩
  rw [mem_blk_h]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE ARRAYS after the run. -/
theorem final_c (c : Dev nD) : (dats m 0 c).arrAt 7 cfg0.N = cellK m c :=
  (dats m 0 c).arrAt_eq_of_cover 7 (cellK m c) (fun t _ => flushed_c m c t) cover_c
theorem final_h (c : Dev nD) : (dats m 0 c).arrAt 6 cfg0.N = hidK m c :=
  (dats m 0 c).arrAt_eq_of_cover 6 (hidK m c) (fun t _ => flushed_h m c t) cover_h

/-! ## The run, read -/

/-- Every weakly fair execution of the program ends with h_new at `hidK`, c_new at `cellK`, and the fifteen arguments
    as launched. -/
theorem run : θ_run defs (onTc (τ := τ) (main (F := Ideal))) ⟨m, fun _ => 0, ρ⟩ fun r => ∀ c : Dev nD,
      r.2.mem ((c.tc : Thread nD τ).loc main_v8_0) = hidK m c
      ∧ r.2.mem ((c.tc : Thread nD τ).loc main_v8_1) = cellK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨((h c).1 6).trans (final_h m c), ((h c).1 7).trans (final_c m c),
      ((h c).1 0).trans (((dats m 0 c).arrAt_in 0 rfl _).trans ((A_eq m c 0).trans (V_arg m c main_arg0))),
      ((h c).1 1).trans (((dats m 0 c).arrAt_in 1 rfl _).trans ((A_eq m c 1).trans (V_arg m c main_arg1))),
      ((h c).1 2).trans (((dats m 0 c).arrAt_in 2 rfl _).trans ((A_eq m c 2).trans (V_arg m c main_arg2))),
      ((h c).2 main_arg3 (Pipeline.mem_restRefs_of main_arg3 (by decide) (by decide))).trans (V_arg m c main_arg3),
      ((h c).2 main_arg4 (Pipeline.mem_restRefs_of main_arg4 (by decide) (by decide))).trans (V_arg m c main_arg4),
      ((h c).2 main_arg5 (Pipeline.mem_restRefs_of main_arg5 (by decide) (by decide))).trans (V_arg m c main_arg5),
      ((h c).2 main_arg6 (Pipeline.mem_restRefs_of main_arg6 (by decide) (by decide))).trans (V_arg m c main_arg6),
      ((h c).2 main_arg7 (Pipeline.mem_restRefs_of main_arg7 (by decide) (by decide))).trans (V_arg m c main_arg7),
      ((h c).2 main_arg8 (Pipeline.mem_restRefs_of main_arg8 (by decide) (by decide))).trans (V_arg m c main_arg8),
      ((h c).2 main_arg9 (Pipeline.mem_restRefs_of main_arg9 (by decide) (by decide))).trans (V_arg m c main_arg9),
      ((h c).2 main_arg10 (Pipeline.mem_restRefs_of main_arg10 (by decide) (by decide))).trans (V_arg m c main_arg10),
      ((h c).2 main_arg11 (Pipeline.mem_restRefs_of main_arg11 (by decide) (by decide))).trans (V_arg m c main_arg11),
      ((h c).2 main_arg12 (Pipeline.mem_restRefs_of main_arg12 (by decide) (by decide))).trans (V_arg m c main_arg12),
      ((h c).2 main_arg13 (Pipeline.mem_restRefs_of main_arg13 (by decide) (by decide))).trans (V_arg m c main_arg13),
      ((h c).2 main_arg14 (Pipeline.mem_restRefs_of main_arg14 (by decide) (by decide))).trans (V_arg m c main_arg14)⟩)
    (run_main m ρ)

end Cert.KernelIdeal.CellValue

end
-- ==== Proof.RefValue.lean ====
/-
  The reference computes the LSTM cell of the specification. Its two results are read one stage at a time down to
  the pre-activation array, which at (r, j) is the two contractions over the 1024 input features plus the joined bias
  at j — the specification's `pre` with the stacked-transposed parameter arrays left as the reference builds them —;
  the slices at column offsets 0, 1024, 2048, 3072 pick the four gates, and the reference's own spelling of the
  logistic function, 1 / (1 + e⁻ᵍ), is that function's definition.
-/
import proofs.«150049_j86792699117977_1_alg».proof.Proof.Gen.ReferenceIdeal.Read
import proofs.«150049_j86792699117977_1_alg».proof.Proof.Spec

noncomputable section

open scoped BigOperators

namespace Cert.ReferenceIdeal.RefValue

open Cert.ReferenceIdeal Cert.ReferenceIdeal.Gen Cert.ReferenceIdeal.Read Cert.LstmCell
open Idealize.ShloMosaic Idealize.ShloMosaic.ValueIdx

variable (x0 x1 x2 : (⟨S16384x1024, .f32⟩ : BufTy).Contents (Elt Ideal))
  (x3 x4 x5 x6 : (⟨S1024x1024, .f32⟩ : BufTy).Contents (Elt Ideal))
  (x7 x8 x9 x10 : (⟨S1024, .f32⟩ : BufTy).Contents (Elt Ideal))
  (x11 x12 x13 x14 : (⟨S1024x1024, .f32⟩ : BufTy).Contents (Elt Ideal))

/-- The pre-activation array at (r, j). -/
theorem pre_at (r : Fin 16384) (j : Fin 4096) :
    val_main_v10 (F := Ideal) x0 x1 x3 x4 x5 x6 x7 x8 x9 x10 x11 x12 x13 x14 (ix2 r j)
      = pre x0 x1 (val_main_v3 (F := Ideal) x3 x4 x5 x6) (val_main_v5 (F := Ideal) x11 x12 x13 x14)
          (val_main_v2 (F := Ideal) x7 x8 x9 x10) r j := by
  rw [val_main_v10_apply, val_main_v7_apply, val_main_v4_apply, val_main_v6_apply, val_main_v9_apply, val_main_v8_apply]
  have el4 : ∀ k : Fin 1024, lidx_main_v4 (ix2 r j) k = ix2 r k := fun k => funext fun a => Fin.ext (by
    match a with | ⟨0, _⟩ => rfl | ⟨1, _⟩ => rfl)
  have er4 : ∀ k : Fin 1024, ridx_main_v4 (ix2 r j) k = ix2 k j := fun k => funext fun a => Fin.ext (by
    match a with | ⟨0, _⟩ => rfl | ⟨1, _⟩ => rfl)
  have el6 : ∀ k : Fin 1024, lidx_main_v6 (ix2 r j) k = ix2 r k := fun k => funext fun a => Fin.ext (by
    match a with | ⟨0, _⟩ => rfl | ⟨1, _⟩ => rfl)
  have er6 : ∀ k : Fin 1024, ridx_main_v6 (ix2 r j) k = ix2 k j := fun k => funext fun a => Fin.ext (by
    match a with | ⟨0, _⟩ => rfl | ⟨1, _⟩ => rfl)
  have eb : idx_main_v8 (idx_main_v9 (ix2 r j)) = ix1 j := funext fun a => Fin.ext (by
    match a with | ⟨0, _⟩ => rfl)
  simp only [el4, er4, el6, er6, eb, Ideal.addf_def]
  rfl

/-- The four gate slices read the pre-activation at column offsets 0, 1024, 2048, 3072. -/
theorem slice_i (r : Fin 16384) (q : Fin 1024) : idx_main_v11 (ix2 r q) = ix2 r ⟨q.val, by omega⟩ :=
  funext fun a => Fin.ext (by match a with | ⟨0, _⟩ => rfl | ⟨1, _⟩ => rfl)
theorem slice_f (r : Fin 16384) (q : Fin 1024) : idx_main_v12 (ix2 r q) = ix2 r ⟨1024 + q.val, by omega⟩ :=
  funext fun a => Fin.ext (by match a with | ⟨0, _⟩ => rfl | ⟨1, _⟩ => rfl)
theorem slice_g (r : Fin 16384) (q : Fin 1024) : idx_main_v13 (ix2 r q) = ix2 r ⟨2048 + q.val, by omega⟩ :=
  funext fun a => Fin.ext (by match a with | ⟨0, _⟩ => rfl | ⟨1, _⟩ => rfl)
theorem slice_o (r : Fin 16384) (q : Fin 1024) : idx_main_v14 (ix2 r q) = ix2 r ⟨3072 + q.val, by omega⟩ :=
  funext fun a => Fin.ext (by match a with | ⟨0, _⟩ => rfl | ⟨1, _⟩ => rfl)

/-- The reference's new cell state at (r, q). -/
theorem cell_at (r : Fin 16384) (q : Fin 1024) :
    val_main_v36 (F := Ideal) x0 x1 x2 x3 x4 x5 x6 x7 x8 x9 x10 x11 x12 x13 x14 (ix2 r q)
      = cellNew x0 x1 x2 (val_main_v3 (F := Ideal) x3 x4 x5 x6) (val_main_v5 (F := Ideal) x11 x12 x13 x14)
          (val_main_v2 (F := Ideal) x7 x8 x9 x10) r q := by
  simp only [val_main_v36_apply, val_main_v34_apply, val_main_v35_apply, val_main_v26_apply, val_main_v25_apply,
    val_main_cst_2_apply, val_main_v24_apply, val_main_v23_apply, val_main_cst_1_apply, val_main_v22_apply, val_main_v21_apply,
    val_main_v12_apply, val_main_v20_apply, val_main_v19_apply, val_main_cst_0_apply, val_main_v18_apply, val_main_v17_apply,
    val_main_cst_apply, val_main_v16_apply, val_main_v15_apply, val_main_v11_apply, val_main_v27_apply, val_main_v13_apply,
    slice_i, slice_f, slice_g, pre_at]
  simp only [Ideal.addf_def, Ideal.mulf_def, Ideal.hostDivf_def, Ideal.hostUnary_exp_def, Ideal.hostUnary_tanh_def,
    Ideal.hostNegf_def, Ideal.negf_def, Ideal.ofBits_def, spelt_logistic]
  rfl

/-- The reference's new hidden state at (r, q). -/
theorem hid_at (r : Fin 16384) (q : Fin 1024) :
    val_main_v38 (F := Ideal) x0 x1 x2 x3 x4 x5 x6 x7 x8 x9 x10 x11 x12 x13 x14 (ix2 r q)
      = hidNew x0 x1 x2 (val_main_v3 (F := Ideal) x3 x4 x5 x6) (val_main_v5 (F := Ideal) x11 x12 x13 x14)
          (val_main_v2 (F := Ideal) x7 x8 x9 x10) r q := by
  rw [val_main_v38_apply, val_main_v37_apply, cell_at]
  simp only [val_main_v33_apply, val_main_v32_apply, val_main_cst_4_apply, val_main_v31_apply, val_main_v30_apply,
    val_main_cst_3_apply, val_main_v29_apply, val_main_v28_apply, val_main_v14_apply, slice_o, pre_at]
  simp only [Ideal.addf_def, Ideal.mulf_def, Ideal.hostDivf_def, Ideal.hostUnary_exp_def, Ideal.hostUnary_tanh_def,
    Ideal.hostNegf_def, Ideal.negf_def, Ideal.ofBits_def, spelt_logistic]
  rfl

/-- The two results as whole arrays. -/
theorem cell_eq : val_main_v36 (F := Ideal) x0 x1 x2 x3 x4 x5 x6 x7 x8 x9 x10 x11 x12 x13 x14
    = cellArr x0 x1 x2 (val_main_v3 (F := Ideal) x3 x4 x5 x6) (val_main_v5 (F := Ideal) x11 x12 x13 x14)
        (val_main_v2 (F := Ideal) x7 x8 x9 x10) := by
  funext i
  obtain ⟨r, q, rfl⟩ : ∃ (r : Fin 16384) (q : Fin 1024), i = ix2 r q := ⟨i 0, i 1, eq_ix2 i⟩
  exact cell_at x0 x1 x2 x3 x4 x5 x6 x7 x8 x9 x10 x11 x12 x13 x14 r q

theorem hid_eq : val_main_v38 (F := Ideal) x0 x1 x2 x3 x4 x5 x6 x7 x8 x9 x10 x11 x12 x13 x14
    = hidArr x0 x1 x2 (val_main_v3 (F := Ideal) x3 x4 x5 x6) (val_main_v5 (F := Ideal) x11 x12 x13 x14)
        (val_main_v2 (F := Ideal) x7 x8 x9 x10) := by
  funext i
  obtain ⟨r, q, rfl⟩ : ∃ (r : Fin 16384) (q : Fin 1024), i = ix2 r q := ⟨i 0, i 1, eq_ix2 i⟩
  exact hid_at x0 x1 x2 x3 x4 x5 x6 x7 x8 x9 x10 x11 x12 x13 x14 r q

end Cert.ReferenceIdeal.RefValue

end
-- ==== Proof.lean ====
/-
  An LSTM cell: from x, h_prev, c_prev (16384 rows of 1024) and four gate matrices, bias vectors and recurrent matrices,

      gates = x · Wiᵀ + h_prev · Whᵀ + b ,   c' = σ(f) · c_prev + σ(i) · tanh(g) ,   h' = σ(o) · tanh(c') ,

  where Wi, Wh, b stack the four gates' parameters and i, f, g, o are the four 1024-lane slices of gates. The kernel
  computes a tile of 256 rows per grid point, with both products on the matrix unit from bf16 copies of the
  transposed stacks; the reference computes the whole arrays at once. On the extended reals a change of float format is
  the identity, a product into a zero accumulator is the plain sum over the 1024 features, the logistic function is
  1 / (1 + e⁻ˣ) however it is spelt, and both programs add the two products and the bias in the same order; a row's
  results depend on that row alone, so the 64 tiles assemble to the reference's arrays. No law that fails at an
  infinity is used, and the precondition is never opened.

  The three frames: each kernel program by its pipeline's run (the layout operations write none of the arguments, an
  input window is never written back, nothing else touches them), the reference by its run with the results dropped.
  `preserves` has no conjunct: the idealized kernel is the kernel's own text read over the extended reals.
-/
import proofs.«150049_j86792699117977_1_alg».proof.Defs
import proofs.«150049_j86792699117977_1_alg».proof.Proof.Gen.Kernel
import proofs.«150049_j86792699117977_1_alg».proof.Proof.Gen.KernelIdeal
import proofs.«150049_j86792699117977_1_alg».proof.Proof.Gen.ReferenceIdeal
import proofs.«150049_j86792699117977_1_alg».proof.Proof.Gen.Pre_finite_inputs
import proofs.«150049_j86792699117977_1_alg».proof.Proof.Gen.ReferenceIdeal.Run
import proofs.«150049_j86792699117977_1_alg».proof.Proof.Gen.ReferenceIdeal.Read
import proofs.«150049_j86792699117977_1_alg».proof.Proof.CellFrameBits
import proofs.«150049_j86792699117977_1_alg».proof.Proof.CellFrameIdeal
import proofs.«150049_j86792699117977_1_alg».proof.Proof.KernelValue
import proofs.«150049_j86792699117977_1_alg».proof.Proof.RefValue
import Idealize.ShloMosaic.Adequacy
import Idealize.ShloMosaic.Init

noncomputable section

namespace Cert.Proof

open Idealize.ShloMosaic Idealize.SL.Sem

/-- The kernel as printed, and read over the extended reals, run to the end and leave their arguments unchanged. -/
theorem frame_k : Cert.frame_Kernel := fun m ρ _ => Cert.Kernel.Cell.frame m ρ
theorem frame_ki : Cert.frame_KernelIdeal := fun m ρ _ => Cert.KernelIdeal.Cell.frame m ρ

/-- The reference runs to the end and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the fifteen arguments both programs end with h_new and c_new at the same arrays: the
    new hidden state and the new cell state of the launched arrays. -/
theorem algebraic : Cert.algebraic_KernelIdeal_ReferenceIdeal := by
  intro m ρ m' ρ' _ hagree
  refine ⟨fun c => Cert.KernelIdeal.CellValue.hidK m c, fun c => Cert.KernelIdeal.CellValue.cellK m c,
    Cert.KernelIdeal.CellValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨(h c).1.trans ?_, (h c).2.1.trans ?_, (h c).2.2⟩
  · rw [Cert.ReferenceIdeal.Read.val_main_v38_eq, Cert.ReferenceIdeal.RefValue.hid_eq,
      a0, a1, a2, a3, a4, a5, a6, a7, a8, a9, a10, a11, a12, a13, a14]
    rfl
  · rw [Cert.ReferenceIdeal.Read.val_main_v36_eq, Cert.ReferenceIdeal.RefValue.cell_eq,
      a0, a1, a2, a3, a4, a5, a6, a7, a8, a9, a10, a11, a12, a13, a14]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
